-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S1000000 : Shape := ⟨1, ![1000000]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg2 : IVec S1000000 32) (main_v32 : IVec S_ 1) (main_c_12 : IVec S_ 32) : IVec S_ 1 :=
  let main_v33 : IVec S1000000 32 := broadcastInDim S1000000 ![] bcast_S_S1000000 main_c_12
  let main_v34 : IVec S1000000 1 := cmpi .slt main_arg2 main_v33
  let main_c_13 : IVec S_ 1 := constantI S_ 1 1#1
  let main_v35 : IVec S_ 1 := (fun x v => Host.reduce IntOp.andi x v reducesTo_S1000000_S_d0 h_S_) main_v34 main_c_13
  let main_v36 : IVec S_ 1 := andi main_v32 main_v35
  main_v36

def fn_part1 {F : FTy → Type} [FloatOps F] (main_arg2 : IVec S1000000 32) (main_arg6 : FVec F S128x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 4294867296#32
  let main_v29 : IVec S1000000 32 := broadcastInDim S1000000 ![] bcast_S_S1000000 main_c_10
  let main_v30 : IVec S1000000 1 := cmpi .sge main_arg2 main_v29
  let main_c_11 : IVec S_ 1 := constantI S_ 1 1#1
  let main_v31 : IVec S_ 1 := (fun x v => Host.reduce IntOp.andi x v reducesTo_S1000000_S_d0 h_S_) main_v30 main_c_11
  let main_v32 : IVec S_ 1 := andi main_v28 main_v31
  let main_c_12 : IVec S_ 32 := constantI S_ 32 100000#32
  fn_part2 (F := F) main_arg2 main_v32 main_c_12

def fn {F : FTy → Type} [FloatOps F] (main_arg0 : FVec F S100000x64 .f32) (main_arg1 : FVec F S1000000x64 .f32) (main_arg2 : IVec S1000000 32) (main_arg3 : IVec S1000000 32) (main_arg4 : FVec F S128x64 .f32) (main_arg5 : FVec F S64 .f32) (main_arg6 : FVec F S128x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg6 main_arg7 main_v13 main_v16
-- ==== Kernel.lean ====
abbrev S100000x64 : Shape := ⟨2, ![100000, 64]⟩
abbrev S1000000x64 : Shape := ⟨2, ![1000000, 64]⟩
abbrev S1000000 : Shape := ⟨1, ![1000000]⟩
abbrev S128x64 : Shape := ⟨2, ![128, 64]⟩
abbrev S64 : Shape := ⟨1, ![64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S64x64 : Shape := ⟨2, ![64, 64]⟩
abbrev S1x64 : Shape := ⟨2, ![1, 64]⟩
abbrev S10000x64 : Shape := ⟨2, ![10000, 64]⟩
abbrev S100000 : Shape := ⟨1, ![100000]⟩
abbrev S100000x1 : Shape := ⟨2, ![100000, 1]⟩
abbrev S5000x64 : Shape := ⟨2, ![5000, 64]⟩

abbrev nBuf : Space → Nat
  | .hbm => 55
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1, .i32⟩
  | .hbm, ⟨17, _⟩ => ⟨S_, .i32⟩
  | .hbm, ⟨18, _⟩ => ⟨S1000000x1, .i32⟩
  | .hbm, ⟨19, _⟩ => ⟨S1000000x1, .i1⟩
  | .hbm, ⟨20, _⟩ => ⟨S1x1, .i32⟩
  | .hbm, ⟨21, _⟩ => ⟨S1000000x1, .i32⟩
  | .hbm, ⟨22, _⟩ => ⟨S1000000x1, .i1⟩
  | .hbm, ⟨23, _⟩ => ⟨S1000000x1, .i1⟩
  | .hbm, ⟨24, _⟩ => ⟨S_, .i1⟩
  | .hbm, ⟨25, _⟩ => ⟨S1000000, .i1⟩
  | .hbm, ⟨26, _⟩ => ⟨S1000000x64, .f32⟩
  | .hbm, ⟨27, _⟩ => ⟨S1000000x64, .i1⟩
  | .hbm, ⟨28, _⟩ => ⟨S_, .f32⟩
  | .hbm, ⟨29, _⟩ => ⟨S1000000x64, .f32⟩
  | .hbm, ⟨30, _⟩ => ⟨S1000000x64, .f32⟩
  | .hbm, ⟨31, _⟩ => ⟨S64x64, .f32⟩
  | .hbm, ⟨32, _⟩ => ⟨S64x64, .f32⟩
  | .hbm, ⟨33, _⟩ => ⟨S1x64, .f32⟩
  | .hbm, ⟨34, _⟩ => ⟨S1000000x64, .f32⟩
  | .hbm, ⟨35, _⟩ => ⟨S_, .f32⟩
  | .hbm, ⟨36, _⟩ => ⟨S100000x64, .f32⟩
  | .hbm, ⟨37, _⟩ => ⟨S1000000x1, .i32⟩
  | .hbm, ⟨38, _⟩ => ⟨S100000x64, .f32⟩
  | .hbm, ⟨39, _⟩ => ⟨S_, .f32⟩
  | .hbm, ⟨40, _⟩ => ⟨S1000000, .f32⟩
  | .hbm, ⟨41, _⟩ => ⟨S_, .f32⟩
  | .hbm, ⟨42, _⟩ => ⟨S100000, .f32⟩
  | .hbm, ⟨43, _⟩ => ⟨S1000000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S64x64, .f32⟩
  | .hbm, ⟨52, _⟩ => ⟨S64x64, .f32⟩
  | .hbm, ⟨53, _⟩ => ⟨S1x64, .f32⟩
  | .hbm, ⟨54, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  slices_S128x64_S64x64_0_0 : S128x64.Slices ![0, 0] S64x64
  slices_S128x64_S64x64_64_0 : S128x64.Slices ![64, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  gather_S100000x64_S1000000x1_S1000000x64_1_0_n_n_0_1_164_wf : GatherDims.WF S100000x64 S1000000x1 S1000000x64 [1] [0] [] [0] [] 1 ![1, 64]
  dot_S10000x64_S64x64_S10000x64_1_0_0_1_n_n_wf : DotDims.WF S10000x64 S64x64 S10000x64 [1] [0] [0] [1] [] []
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1000000x64.size a
  hwx0_1 : ∀ i : grid0.Coords, EltTy.bits .f32 = 32 ∨ (Rect.block (s := S1000000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S1000000x64.size a
  hwx0_5 : ∀ i : grid0.Coords, EltTy.bits .f32 = 32 ∨ (Rect.block (s := S1000000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg1) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S1000000 : Shape := ⟨1, ![1000000]⟩
abbrev S128x64 : Shape := ⟨2, ![128, 64]⟩
abbrev S64 : Shape := ⟨1, ![64]⟩
abbrev S_ : Shape := ⟨0, ![]⟩
abbrev S1000000x1 : Shape := ⟨2, ![1000000, 1]⟩
abbrev S1000000x128 : Shape := ⟨2, ![1000000, 128]⟩
abbrev S1x64 : Shape := ⟨2, ![1, 64]⟩
abbrev S100000 : Shape := ⟨1, ![100000]⟩
abbrev S100000x1 : Shape := ⟨2, ![100000, 1]⟩
abbrev S100000x128 : Shape := ⟨2, ![100000, 128]⟩

abbrev nBuf : Space → Nat
  | .hbm => 49
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x64, .f32⟩
  | .hbm, ⟨17, _⟩ => ⟨S1000000x128, .f32⟩
  | .hbm, ⟨18, _⟩ => ⟨S1000000x64, .f32⟩
  | .hbm, ⟨19, _⟩ => ⟨S1x64, .f32⟩
  | .hbm, ⟨20, _⟩ => ⟨S1000000x64, .f32⟩
  | .hbm, ⟨21, _⟩ => ⟨S1000000x64, .f32⟩
  | .hbm, ⟨22, _⟩ => ⟨S_, .f32⟩
  | .hbm, ⟨23, _⟩ => ⟨S1000000x64, .f32⟩
  | .hbm, ⟨24, _⟩ => ⟨S1000000x64, .f32⟩
  | .hbm, ⟨25, _⟩ => ⟨S_, .f32⟩
  | .hbm, ⟨26, _⟩ => ⟨S100000x64, .f32⟩
  | .hbm, ⟨27, _⟩ => ⟨S1000000x1, .i32⟩
  | .hbm, ⟨28, _⟩ => ⟨S100000x64, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S100000, .f32⟩
  | .hbm, ⟨33, _⟩ => ⟨S1000000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x128, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  dot_S1000000x128_S128x64_S1000000x64_1_0_0_1_n_n_wf : DotDims.WF S1000000x128 S128x64 S1000000x64 [1] [0] [0] [1] [] []
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x128_S128x64_S100000x64_1_0_0_1_n_n_wf : DotDims.WF S100000x128 S128x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  One message-passing step of an edge-conditioned graph layer has the same small computation twice: a linear
  layer applied to two row blocks laid side by side, followed by the positive part. With the weight matrix cut
  into its upper and lower 64 rows the product of the joined block is the sum of the two halves' products,

      relu ([x | y] · W + b)  =  relu (x · W_top + y · W_bot + b).

  This module states that function once, for any number of rows, as a function of a row and a column, together
  with the two halves of a 128-row weight matrix and a 64-vector read as a one-row matrix. It imports no program.
-/
import Idealize.ShloMosaic.PureOps.Ideal
import Idealize.ShloMosaic.Lib.ValueIdx

noncomputable section

open scoped BigOperators

namespace Cert.EdgeConv

open Idealize.ShloMosaic Idealize.ShloMosaic.ValueIdx

/-- `R` rows of 64 entries. -/
abbrev Rows (R : Nat) : Shape := ⟨2, ![R, 64]⟩
/-- A 64 × 64 weight block. -/
abbrev Sq : Shape := ⟨2, ![64, 64]⟩
/-- A bias as a one-row matrix. -/
abbrev Row1 : Shape := ⟨2, ![1, 64]⟩
/-- A full 128 × 64 weight matrix. -/
abbrev Wt : Shape := ⟨2, ![128, 64]⟩
/-- A bias as a vector. -/
abbrev V64 : Shape := ⟨1, ![64]⟩

/-- Entry `(p, q)` of the layer: the two inner products of row `p` with column `q` of the two weight
    blocks, added, then the bias entry `q`, then the larger of that and zero. The additions are grouped as
    the kernels group them: (first product + second product) + bias. -/
def mlpAt {R : Nat} (x y : (Rows R).Idx → EReal) (wa wb : Sq.Idx → EReal) (b : Row1.Idx → EReal)
    (p : Fin R) (q : Fin 64) : EReal :=
  max (((∑ k : Fin 64, x (ix2 p k) * wa (ix2 k q)) + (∑ k : Fin 64, y (ix2 p k) * wb (ix2 k q))) + b (ix2 0 q)) 0

/-- The layer as an array: entry `i` is `mlpAt` at `i`'s two coordinates. -/
def mlp {R : Nat} (x y : (Rows R).Idx → EReal) (wa wb : Sq.Idx → EReal) (b : Row1.Idx → EReal) :
    (Rows R).Idx → EReal :=
  fun i => mlpAt x y wa wb b ⟨(i 0).val, idx2_lt0 i⟩ ⟨(i 1).val, idx2_lt1 i⟩

theorem mlp_ix2 {R : Nat} (x y : (Rows R).Idx → EReal) (wa wb : Sq.Idx → EReal) (b : Row1.Idx → EReal)
    (p : Fin R) (q : Fin 64) : mlp x y wa wb b (ix2 p q) = mlpAt x y wa wb b p q := rfl

/-- Rows 0 … 63 of a 128-row weight matrix. -/
def topHalf (W : Wt.Idx → EReal) : Sq.Idx → EReal :=
  fun j => W (ix2 ⟨(j 0).val, by have := idx2_lt0 j; omega⟩ ⟨(j 1).val, idx2_lt1 j⟩)
/-- Rows 64 … 127 of a 128-row weight matrix. -/
def botHalf (W : Wt.Idx → EReal) : Sq.Idx → EReal :=
  fun j => W (ix2 ⟨(j 0).val + 64, by have := idx2_lt0 j; omega⟩ ⟨(j 1).val, idx2_lt1 j⟩)
/-- A 64-vector as a one-row matrix. -/
def asRow (b : V64.Idx → EReal) : Row1.Idx → EReal :=
  fun j => b (ix1 ⟨(j 1).val, idx2_lt1 j⟩)

theorem topHalf_ix2 (W : Wt.Idx → EReal) (k q : Fin 64) :
    topHalf W (ix2 k q) = W (ix2 ⟨k.val, by omega⟩ q) := rfl
theorem botHalf_ix2 (W : Wt.Idx → EReal) (k q : Fin 64) :
    botHalf W (ix2 k q) = W (ix2 ⟨k.val + 64, by omega⟩ q) := rfl
theorem asRow_ix2 (b : V64.Idx → EReal) (z : Fin 1) (q : Fin 64) : asRow b (ix2 z q) = b (ix1 q) := rfl

/-- A sum over 128 terms is the sum of its first 64 and its last 64 terms (addition of extended reals is
    commutative and associative, so no finiteness is needed). -/
theorem sum128_split (f : Fin 128 → EReal) :
    (∑ k : Fin 128, f k) = (∑ k : Fin 64, f ⟨k.val, by omega⟩) + (∑ k : Fin 64, f ⟨k.val + 64, by omega⟩) := by
  have h := Fin.sum_univ_add (M := EReal) (a := 64) (b := 64) f
  rw [h]
  congr 1

end Cert.EdgeConv

end
-- ==== Proof.PayEdge.lean ====
/-
  The edge layer's block computation, entry by entry: on a block of 10000 edges the kernel body forms the two
  matrix products (edge features × upper weight half, gathered node features × lower weight half) into zero
  accumulators, adds them, adds the bias row, and takes the positive part. Over the extended reals the change
  of float format is the identity, so each entry is exactly `mlpAt`.
-/
import proofs.«414414_j11811160064041_1_alg».proof.Proof.Gen.KernelIdeal.Skeleton
import proofs.«414414_j11811160064041_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.EdgeConv

open Idealize.ShloMosaic Idealize.ShloMosaic.ValueIdx Cert.KernelIdeal Cert.KernelIdeal.Gen

/-! The product contracts the second axis of the left block with the first axis of the weight block. At an
    output entry `i` and a contraction index `c`, the left operand is read at (row of `i`, `c`) and the right
    operand at (`c`, column of `i`): one statement per operand and per axis. -/

private theorem lhs_edge_0 (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
private theorem lhs_edge_1 (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c
private theorem rhs_edge_0 (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c
private theorem rhs_edge_1 (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block product into a zero accumulator, at entry `(p, q)`: the inner product of row `p` of the left
    block with column `q` of the weight block. The sum over the one-axis contraction index is re-indexed by
    that axis's coordinate `k : Fin 64`, and the two operand indices are then `(p, k)` and `(k, q)`. -/
private theorem mm_edge (a : FVec Ideal S10000x64 .bf16) (b : FVec Ideal S64x64 .bf16) (p : Fin 10000) (q : Fin 64) :
    matmul dot_S10000x64_S64x64_S10000x64_1_0_0_1_n_n none a b (constant S10000x64 .f32 0x00000000#32) (ix2 p q)
      = ∑ k : Fin 64, a (ix2 p k) * b (ix2 k q) := by
  refine (Ideal.matmul_constant_zero_apply dot_S10000x64_S64x64_S10000x64_1_0_0_1_n_n none a b (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun ax => Fin.ext (by
      match ax with
      | ⟨0, _⟩ => exact lhs_edge_0 _ _
      | ⟨1, _⟩ => exact (lhs_edge_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun ax => Fin.ext (by
      match ax with
      | ⟨0, _⟩ => exact (rhs_edge_0 _ _).trans hk
      | ⟨1, _⟩ => exact rhs_edge_1 _ _)
  rw [el, er]

theorem pay_edge (v0 v2 : Vec Ideal S10000x64 .f32) (v5 v8 : Vec Ideal S64x64 .f32) (v14 : Vec Ideal S1x64 .f32) :
    k0_pay1 (F := Ideal) v0 v2 v5 v8 v14 = mlp (R := 10000) v0 v2 v5 v8 v14 := by
  funext j
  obtain ⟨p, q, rfl⟩ : ∃ (p : Fin 10000) (q : Fin 64), j = ix2 p q := ⟨j 0, j 1, eq_ix2 j⟩
  rw [mlp_ix2]
  unfold mlpAt k0_pay1
  -- a reshape to the same shape changes nothing
  simp only [shapeCast_self]
  -- entry (p, q): the larger of (product + product + bias row at q) and the scalar zero
  rw [maximumf_apply, addf_apply, addf_apply, mm_edge, mm_edge, broadcastTo_1b_ab_apply, broadcast_apply]
  -- over the extended reals the change of float format is the identity
  simp only [truncf_apply]
  -- the all-zero word is the number zero
  exact congrArg (max _) Ideal.ofBits_zero_f32

end Cert.EdgeConv

end
-- ==== Proof.EdgeArray.lean ====
/-
  From blocks to the whole array, edge layer. The grid has 100 points; point `t` reads rows
  `10000·t … 10000·t + 9999` of the edge features and of the gathered node features, the two weight halves and
  the bias whole, and writes rows `10000·t … 10000·t + 9999` of the messages. Row `p` of block `t` of the
  layer's result depends only on row `10000·t + p` of the two inputs, so what point `t` writes back is block
  `t` of the layer applied to the whole arrays; the 100 blocks tile the 1000000 rows, hence the array the
  region leaves is the layer applied to the whole arrays.
-/
import proofs.«414414_j11811160064041_1_alg».proof.Proof.Gen.KernelIdeal.Frame
import proofs.«414414_j11811160064041_1_alg».proof.Proof.Spec
import proofs.«414414_j11811160064041_1_alg».proof.Proof.PayEdge
import Idealize.ShloMosaic.Lib.ValueIdx
import Idealize.ShloMosaic.Lib.Pipeline.Value

noncomputable section

open scoped BigOperators

namespace Cert.EdgeConv

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The offset of an access that takes a whole block. -/
private theorem zero_off : (![0, 0] : Fin 2 → Nat) = fun _ => 0 := funext fun a => by fin_cases a <;> rfl

/-- The block indices of the six windows, decided over the 100 grid points: the two feature windows and the
    output move down the rows with the point, the weight halves and the bias stay at block (0, 0). -/
private theorem edge_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the layer of a block depends only on the inputs' rows: if the block's rows are rows `f p`
    of the whole arrays and the weights and bias are the whole arrays', the block's entry `(p, q)` is the
    whole arrays' entry `(f p, q)`. -/
private theorem mlp_rows {R r : Nat} (X Y : (Rows R).Idx → EReal) (WA WB : Sq.Idx → EReal) (B : Row1.Idx → EReal)
    (x y : (Rows r).Idx → EReal) (wa wb : Sq.Idx → EReal) (b : Row1.Idx → EReal) (f : Fin r → Fin R)
    (hx : ∀ p k, x (ix2 p k) = X (ix2 (f p) k)) (hy : ∀ p k, y (ix2 p k) = Y (ix2 (f p) k))
    (hwa : wa = WA) (hwb : wb = WB) (hb : b = B) (p : Fin r) (q : Fin 64) :
    mlp x y wa wb b (ix2 p q) = mlp X Y WA WB B (ix2 (f p) q) := by
  subst hwa hwb hb
  rw [mlp_ix2, mlp_ix2]
  unfold mlpAt
  simp only [hx, hy]

/-- Row `p` of block `t` is row `10000·t + p` of the array. -/
private def rowOf (t : Fin cfg0.N) (p : Fin 10000) : Fin 1000000 :=
  ⟨t.val * 10000 + p.val, by have h : t.val < 100 := N_0 ▸ t.isLt; have := p.isLt; omega⟩

/-- The edge-feature block at point `t`, row by row. -/
private theorem block_rows0 (c : Dev nD) (t : Fin cfg0.N) (p : Fin 10000) (k : Fin 64) :
    iblk0 V c 0 t (ix2 p k) = V c (Pipeline.arrRef spec0 0) (ix2 (rowOf t p) k) := by
  obtain ⟨e00, e01, e10, e11, e20, e21, e30, e31, e40, e41, e50, e51⟩ := edge_idx t
  show V c (Pipeline.arrRef spec0 0) (((cfg0.win 0).blk t).view.emb (ix2 p k)) = _
  refine congrArg _ ?_
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

/-- The gathered-node-feature block at point `t`, row by row. -/
private theorem block_rows1 (c : Dev nD) (t : Fin cfg0.N) (p : Fin 10000) (k : Fin 64) :
    iblk0 V c 1 t (ix2 p k) = V c (Pipeline.arrRef spec0 1) (ix2 (rowOf t p) k) := by
  obtain ⟨e00, e01, e10, e11, e20, e21, e30, e31, e40, e41, e50, e51⟩ := edge_idx t
  show V c (Pipeline.arrRef spec0 1) (((cfg0.win 1).blk t).view.emb (ix2 p k)) = _
  refine congrArg _ ?_
  funext a; apply Fin.ext
  match a with
  | ⟨0, _⟩ => show win0_1.index t (0 : Fin 2) * 10000 + 1 * p.val = t.val * 10000 + p.val; omega
  | ⟨1, _⟩ => show win0_1.index t (1 : Fin 2) * 64 + 1 * k.val = k.val; omega

/-- The upper weight half is read whole at every point. -/
private theorem block_whole2 (c : Dev nD) (t : Fin cfg0.N) : iblk0 V c 2 t = V c (Pipeline.arrRef spec0 2) := by
  obtain ⟨e00, e01, e10, e11, e20, e21, e30, e31, e40, e41, e50, e51⟩ := edge_idx t
  funext y
  show V c (Pipeline.arrRef spec0 2) (((cfg0.win 2).blk t).view.emb y) = _
  refine congrArg _ ?_
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The lower weight half is read whole at every point. -/
private theorem block_whole3 (c : Dev nD) (t : Fin cfg0.N) : iblk0 V c 3 t = V c (Pipeline.arrRef spec0 3) := by
  obtain ⟨e00, e01, e10, e11, e20, e21, e30, e31, e40, e41, e50, e51⟩ := edge_idx t
  funext y
  show V c (Pipeline.arrRef spec0 3) (((cfg0.win 3).blk t).view.emb y) = _
  refine congrArg _ ?_
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The bias row is read whole at every point. -/
private theorem block_whole4 (c : Dev nD) (t : Fin cfg0.N) : iblk0 V c 4 t = V c (Pipeline.arrRef spec0 4) := by
  obtain ⟨e00, e01, e10, e11, e20, e21, e30, e31, e40, e41, e50, e51⟩ := edge_idx t
  funext y
  show V c (Pipeline.arrRef spec0 4) (((cfg0.win 4).blk t).view.emb y) = _
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Entry `(p, q)` of the output block at point `t` sits at `(10000·t + p, q)` of the messages array. -/
private theorem out_emb (t : Fin cfg0.N) (p : Fin 10000) (q : Fin 64) :
    ((cfg0.win 5).blk t).view.emb (ix2 p q) = ix2 (rowOf t p) q := by
  obtain ⟨e00, e01, e10, e11, e20, e21, e30, e31, e40, e41, e50, e51⟩ := edge_idx t
  funext a; apply Fin.ext
  match a with
  | ⟨0, _⟩ => show win0_5.index t (0 : Fin 2) * 10000 + 1 * p.val = t.val * 10000 + p.val; omega
  | ⟨1, _⟩ => show win0_5.index t (1 : Fin 2) * 64 + 1 * q.val = q.val; omega

/-- What point `t` writes back is block `t` of the layer of the whole arrays. -/
private theorem flushed_edge (c : Dev nD) (t : Fin cfg0.N) :
    (dat0 (F := Ideal) V c).flushed 5 t = ((cfg0.win 5).blk t).view.read (Elt Ideal)
      (mlp (R := 1000000) (V c (Pipeline.arrRef spec0 0)) (V c (Pipeline.arrRef spec0 1))
          (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero zero_off]
  simp only [View.ld_unit_zero (S := S10000x64) zero_off, View.ld_unit_zero (S := S64x64) zero_off,
    View.ld_unit_zero (S := S1x64) zero_off]
  rw [pay_edge]
  funext j
  obtain ⟨p, q, rfl⟩ : ∃ (p : Fin 10000) (q : Fin 64), j = ix2 p q := ⟨j 0, j 1, eq_ix2 j⟩
  show mlp (R := 10000) (iblk0 V c 0 t) (iblk0 V c 1 t) (iblk0 V c 2 t) (iblk0 V c 3 t) (iblk0 V c 4 t) (ix2 p q)
    = mlp (R := 1000000) (V c (Pipeline.arrRef spec0 0)) (V c (Pipeline.arrRef spec0 1))
          (V c (Pipeline.arrRef spec0 2)) (V c (Pipeline.arrRef spec0 3)) (V c (Pipeline.arrRef spec0 4))
        (((cfg0.win 5).blk t).view.emb (ix2 p q))
  rw [out_emb t p q]
  exact mlp_rows (V c (Pipeline.arrRef spec0 0)) (V c (Pipeline.arrRef spec0 1))
    (V c (Pipeline.arrRef spec0 2)) (V c (Pipeline.arrRef spec0 3)) (V c (Pipeline.arrRef spec0 4))
    (iblk0 V c 0 t) (iblk0 V c 1 t) (iblk0 V c 2 t) (iblk0 V c 3 t) (iblk0 V c 4 t) (rowOf t)
    (block_rows0 V c t) (block_rows1 V c t) (block_whole2 V c t) (block_whole3 V c t) (block_whole4 V c t) p q

/-- An index of the messages array is in point `t`'s block iff each coordinate is in the block's range. -/
private theorem mem_out_blk (t : Fin cfg0.N) (i : S1000000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v4).slice (win0_5.rect t)).set ↔ _
  rw [View.set_slice_whole, Rect.mem_set_unit]
  exact Iff.rfl

/-- The 100 blocks of 10000 rows tile the 1000000 rows: row `r` is in block `r / 10000`. -/
private theorem out_cover (i : S1000000x64.Idx) :
    ∃ t : Fin cfg0.N, (cfg0.win 5).flush t = true ∧ i ∈ ((cfg0.win 5).blk t).view.set := by
  have hi0 : (i 0).val < 1000000 := (i 0).isLt
  have hi1 : (i 1).val < 64 := (i 1).isLt
  have hN : cfg0.N = 100 := N_0
  let t : Fin cfg0.N := ⟨(i 0).val / 10000, by rw [hN]; omega⟩
  refine ⟨t, flush0_5 t, ?_⟩
  obtain ⟨e00, e01, e10, e11, e20, e21, e30, e31, e40, e41, e50, e51⟩ := edge_idx t
  have ht : t.val = (i 0).val / 10000 := rfl
  rw [mem_out_blk]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 64 ≤ (i 1).val ∧ (i 1).val < win0_5.index t (1 : Fin 2) * 64 + 64
    omega

/-- The messages array as the first region leaves it, from ANY contents `V` at the region's entry: the layer
    of the five arrays its windows read. -/
theorem edge_array (c : Dev nD) :
    (dat0 (F := Ideal) V c).arrAt 5 cfg0.N
      = mlp (R := 1000000) (V c (Pipeline.arrRef spec0 0)) (V c (Pipeline.arrRef spec0 1))
          (V c (Pipeline.arrRef spec0 2)) (V c (Pipeline.arrRef spec0 3)) (V c (Pipeline.arrRef spec0 4)) :=
  (dat0 (F := Ideal) V c).arrAt_eq_of_cover 5
    (mlp (R := 1000000) (V c (Pipeline.arrRef spec0 0)) (V c (Pipeline.arrRef spec0 1))
      (V c (Pipeline.arrRef spec0 2)) (V c (Pipeline.arrRef spec0 3)) (V c (Pipeline.arrRef spec0 4)))
    (fun t _ => flushed_edge V c t) out_cover

end Cert.EdgeConv

end
-- ==== Proof.PayNode.lean ====
/-
  The node layer's block computation, entry by entry: on a block of 5000 nodes the kernel body forms the two
  matrix products (mean incoming message × upper weight half, node features × lower weight half) into zero
  accumulators, adds them, adds the bias row, and takes the positive part. Over the extended reals the change
  of float format is the identity, so each entry is exactly `mlpAt`.
-/
import proofs.«414414_j11811160064041_1_alg».proof.Proof.Gen.KernelIdeal.Skeleton
import proofs.«414414_j11811160064041_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.EdgeConv

open Idealize.ShloMosaic Idealize.ShloMosaic.ValueIdx Cert.KernelIdeal Cert.KernelIdeal.Gen

/-! The product contracts the second axis of the left block with the first axis of the weight block. At an
    output entry `i` and a contraction index `c`, the left operand is read at (row of `i`, `c`) and the right
    operand at (`c`, column of `i`): one statement per operand and per axis. -/

private theorem lhs_node_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem lhs_node_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
private theorem rhs_node_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
private theorem rhs_node_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block product into a zero accumulator, at entry `(p, q)`: the inner product of row `p` of the left
    block with column `q` of the weight block. The sum over the one-axis contraction index is re-indexed by
    that axis's coordinate `k : Fin 64`, and the two operand indices are then `(p, k)` and `(k, q)`. -/
private theorem mm_node (a : FVec Ideal S5000x64 .bf16) (b : FVec Ideal S64x64 .bf16) (p : Fin 5000) (q : Fin 64) :
    matmul dot_S5000x64_S64x64_S5000x64_1_0_0_1_n_n none a b (constant S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun ax => Fin.ext (by
      match ax with
      | ⟨0, _⟩ => exact lhs_node_0 _ _
      | ⟨1, _⟩ => exact (lhs_node_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun ax => Fin.ext (by
      match ax with
      | ⟨0, _⟩ => exact (rhs_node_0 _ _).trans hk
      | ⟨1, _⟩ => exact rhs_node_1 _ _)
  rw [el, er]

theorem pay_node (v0 v3 : Vec Ideal S5000x64 .f32) (v5 v8 : Vec Ideal S64x64 .f32) (v14 : Vec Ideal S1x64 .f32) :
    k1_pay1 (F := Ideal) v0 v3 v5 v8 v14 = mlp (R := 5000) v0 v3 v5 v8 v14 := by
  funext j
  obtain ⟨p, q, rfl⟩ : ∃ (p : Fin 5000) (q : Fin 64), j = ix2 p q := ⟨j 0, j 1, eq_ix2 j⟩
  rw [mlp_ix2]
  unfold mlpAt k1_pay1
  -- a reshape to the same shape changes nothing
  simp only [shapeCast_self]
  -- entry (p, q): the larger of (product + product + bias row at q) and the scalar zero
  rw [maximumf_apply, addf_apply, addf_apply, mm_node, mm_node, broadcastTo_1b_ab_apply, broadcast_apply]
  -- over the extended reals the change of float format is the identity
  simp only [truncf_apply]
  -- the all-zero word is the number zero
  exact congrArg (max _) Ideal.ofBits_zero_f32

end Cert.EdgeConv

end
-- ==== Proof.NodeArray.lean ====
/-
  From blocks to the whole array, node layer. The grid has 20 points; point `t` reads rows
  `5000·t … 5000·t + 4999` of the mean incoming messages and of the node features, the two weight halves and
  the bias whole, and writes rows `5000·t … 5000·t + 4999` of the result. Row `p` of block `t` of the
  layer's result depends only on row `5000·t + p` of the two inputs, so what point `t` writes back is block
  `t` of the layer applied to the whole arrays; the 20 blocks tile the 100000 rows, hence the array the
  region leaves is the layer applied to the whole arrays.
-/
import proofs.«414414_j11811160064041_1_alg».proof.Proof.Gen.KernelIdeal.Frame
import proofs.«414414_j11811160064041_1_alg».proof.Proof.Spec
import proofs.«414414_j11811160064041_1_alg».proof.Proof.PayNode
import Idealize.ShloMosaic.Lib.ValueIdx
import Idealize.ShloMosaic.Lib.Pipeline.Value

noncomputable section

open scoped BigOperators

namespace Cert.EdgeConv

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The offset of an access that takes a whole block. -/
private theorem zero_off : (![0, 0] : Fin 2 → Nat) = fun _ => 0 := funext fun a => by fin_cases a <;> rfl

/-- The block indices of the six windows, decided over the 20 grid points: the two feature windows and the
    output move down the rows with the point, the weight halves and the bias stay at block (0, 0). -/
private theorem node_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the layer of a block depends only on the inputs' rows: if the block's rows are rows `f p`
    of the whole arrays and the weights and bias are the whole arrays', the block's entry `(p, q)` is the
    whole arrays' entry `(f p, q)`. -/
private theorem mlp_rows {R r : Nat} (X Y : (Rows R).Idx → EReal) (WA WB : Sq.Idx → EReal) (B : Row1.Idx → EReal)
    (x y : (Rows r).Idx → EReal) (wa wb : Sq.Idx → EReal) (b : Row1.Idx → EReal) (f : Fin r → Fin R)
    (hx : ∀ p k, x (ix2 p k) = X (ix2 (f p) k)) (hy : ∀ p k, y (ix2 p k) = Y (ix2 (f p) k))
    (hwa : wa = WA) (hwb : wb = WB) (hb : b = B) (p : Fin r) (q : Fin 64) :
    mlp x y wa wb b (ix2 p q) = mlp X Y WA WB B (ix2 (f p) q) := by
  subst hwa hwb hb
  rw [mlp_ix2, mlp_ix2]
  unfold mlpAt
  simp only [hx, hy]

/-- Row `p` of block `t` is row `5000·t + p` of the array. -/
private def rowOf (t : Fin cfg1.N) (p : Fin 5000) : Fin 100000 :=
  ⟨t.val * 5000 + p.val, by have h : t.val < 20 := N_1 ▸ t.isLt; have := p.isLt; omega⟩

/-- The mean-incoming-message block at point `t`, row by row. -/
private theorem block_rows0 (c : Dev nD) (t : Fin cfg1.N) (p : Fin 5000) (k : Fin 64) :
    iblk1 V c 0 t (ix2 p k) = V c (Pipeline.arrRef spec1 0) (ix2 (rowOf t p) k) := by
  obtain ⟨e00, e01, e10, e11, e20, e21, e30, e31, e40, e41, e50, e51⟩ := node_idx t
  show V c (Pipeline.arrRef spec1 0) (((cfg1.win 0).blk t).view.emb (ix2 p k)) = _
  refine congrArg _ ?_
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

/-- The node-feature block at point `t`, row by row. -/
private theorem block_rows1 (c : Dev nD) (t : Fin cfg1.N) (p : Fin 5000) (k : Fin 64) :
    iblk1 V c 1 t (ix2 p k) = V c (Pipeline.arrRef spec1 1) (ix2 (rowOf t p) k) := by
  obtain ⟨e00, e01, e10, e11, e20, e21, e30, e31, e40, e41, e50, e51⟩ := node_idx t
  show V c (Pipeline.arrRef spec1 1) (((cfg1.win 1).blk t).view.emb (ix2 p k)) = _
  refine congrArg _ ?_
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

/-- The upper weight half is read whole at every point. -/
private theorem block_whole2 (c : Dev nD) (t : Fin cfg1.N) : iblk1 V c 2 t = V c (Pipeline.arrRef spec1 2) := by
  obtain ⟨e00, e01, e10, e11, e20, e21, e30, e31, e40, e41, e50, e51⟩ := node_idx t
  funext y
  show V c (Pipeline.arrRef spec1 2) (((cfg1.win 2).blk t).view.emb y) = _
  refine congrArg _ ?_
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The lower weight half is read whole at every point. -/
private theorem block_whole3 (c : Dev nD) (t : Fin cfg1.N) : iblk1 V c 3 t = V c (Pipeline.arrRef spec1 3) := by
  obtain ⟨e00, e01, e10, e11, e20, e21, e30, e31, e40, e41, e50, e51⟩ := node_idx t
  funext y
  show V c (Pipeline.arrRef spec1 3) (((cfg1.win 3).blk t).view.emb y) = _
  refine congrArg _ ?_
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The bias row is read whole at every point. -/
private theorem block_whole4 (c : Dev nD) (t : Fin cfg1.N) : iblk1 V c 4 t = V c (Pipeline.arrRef spec1 4) := by
  obtain ⟨e00, e01, e10, e11, e20, e21, e30, e31, e40, e41, e50, e51⟩ := node_idx t
  funext y
  show V c (Pipeline.arrRef spec1 4) (((cfg1.win 4).blk t).view.emb y) = _
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- Entry `(p, q)` of the output block at point `t` sits at `(5000·t + p, q)` of the result array. -/
private theorem out_emb (t : Fin cfg1.N) (p : Fin 5000) (q : Fin 64) :
    ((cfg1.win 5).blk t).view.emb (ix2 p q) = ix2 (rowOf t p) q := by
  obtain ⟨e00, e01, e10, e11, e20, e21, e30, e31, e40, e41, e50, e51⟩ := node_idx t
  funext a; apply Fin.ext
  match a with
  | ⟨0, _⟩ => show win1_5.index t (0 : Fin 2) * 5000 + 1 * p.val = t.val * 5000 + p.val; omega
  | ⟨1, _⟩ => show win1_5.index t (1 : Fin 2) * 64 + 1 * q.val = q.val; omega

/-- What point `t` writes back is block `t` of the layer of the whole arrays. -/
private theorem flushed_node (c : Dev nD) (t : Fin cfg1.N) :
    (dat1 (F := Ideal) V c).flushed 5 t = ((cfg1.win 5).blk t).view.read (Elt Ideal)
      (mlp (R := 100000) (V c (Pipeline.arrRef spec1 0)) (V c (Pipeline.arrRef spec1 1))
          (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero zero_off]
  simp only [View.ld_unit_zero (S := S5000x64) zero_off, View.ld_unit_zero (S := S64x64) zero_off,
    View.ld_unit_zero (S := S1x64) zero_off]
  rw [pay_node]
  funext j
  obtain ⟨p, q, rfl⟩ : ∃ (p : Fin 5000) (q : Fin 64), j = ix2 p q := ⟨j 0, j 1, eq_ix2 j⟩
  show mlp (R := 5000) (iblk1 V c 0 t) (iblk1 V c 1 t) (iblk1 V c 2 t) (iblk1 V c 3 t) (iblk1 V c 4 t) (ix2 p q)
    = mlp (R := 100000) (V c (Pipeline.arrRef spec1 0)) (V c (Pipeline.arrRef spec1 1))
          (V c (Pipeline.arrRef spec1 2)) (V c (Pipeline.arrRef spec1 3)) (V c (Pipeline.arrRef spec1 4))
        (((cfg1.win 5).blk t).view.emb (ix2 p q))
  rw [out_emb t p q]
  exact mlp_rows (V c (Pipeline.arrRef spec1 0)) (V c (Pipeline.arrRef spec1 1))
    (V c (Pipeline.arrRef spec1 2)) (V c (Pipeline.arrRef spec1 3)) (V c (Pipeline.arrRef spec1 4))
    (iblk1 V c 0 t) (iblk1 V c 1 t) (iblk1 V c 2 t) (iblk1 V c 3 t) (iblk1 V c 4 t) (rowOf t)
    (block_rows0 V c t) (block_rows1 V c t) (block_whole2 V c t) (block_whole3 V c t) (block_whole4 V c t) p q

/-- An index of the result array is in point `t`'s block iff each coordinate is in the block's range. -/
private theorem mem_out_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v20).slice (win1_5.rect t)).set ↔ _
  rw [View.set_slice_whole, Rect.mem_set_unit]
  exact Iff.rfl

/-- The 20 blocks of 5000 rows tile the 100000 rows: row `r` is in block `r / 5000`. -/
private theorem out_cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  refine ⟨t, flush1_5 t, ?_⟩
  obtain ⟨e00, e01, e10, e11, e20, e21, e30, e31, e40, e41, e50, e51⟩ := node_idx t
  have ht : t.val = (i 0).val / 5000 := rfl
  rw [mem_out_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- The result array as the second region leaves it, from ANY contents `V` at the region's entry: the layer
    of the five arrays its windows read. -/
theorem node_array (c : Dev nD) :
    (dat1 (F := Ideal) V c).arrAt 5 cfg1.N
      = mlp (R := 100000) (V c (Pipeline.arrRef spec1 0)) (V c (Pipeline.arrRef spec1 1))
          (V c (Pipeline.arrRef spec1 2)) (V c (Pipeline.arrRef spec1 3)) (V c (Pipeline.arrRef spec1 4)) :=
  (dat1 (F := Ideal) V c).arrAt_eq_of_cover 5
    (mlp (R := 100000) (V c (Pipeline.arrRef spec1 0)) (V c (Pipeline.arrRef spec1 1))
      (V c (Pipeline.arrRef spec1 2)) (V c (Pipeline.arrRef spec1 3)) (V c (Pipeline.arrRef spec1 4)))
    (fun t _ => flushed_node V c t) out_cover

end Cert.EdgeConv

end
-- ==== Proof.Take.lean ====
/-
  Gathering rows of the node-feature matrix at the edges' source indices. Both programs first turn a negative
  index `s` into `s + 100000`. The kernel's program then tests `0 ≤ s' ≤ 99999` and puts a filler value in
  the rows that fail the test; the reference gathers without a test (an index outside the range is clamped).
  When every index lies in `[-100000, 100000)` the wrapped index lies in `[0, 99999]`, every test passes, and
  the filled gather is the plain gather.
-/
import proofs.«414414_j11811160064041_1_alg».proof.Proof.Gen.KernelIdeal
import Idealize.ShloMosaic.Lib.ReduceAll
import Idealize.ShloMosaic.Lib.StableHlo.Predicate
import Idealize.ShloMosaic.Lib.ValueIdx
import Idealize.ShloMosaic.Lib.Pipeline.Value

noncomputable section

open scoped BigOperators

namespace Cert.EdgeConv

open Idealize.ShloMosaic Idealize.ShloMosaic.ValueIdx Cert.KernelIdeal Cert.KernelIdeal.Gen

/-- The source indices with negative ones wrapped, as a one-column matrix of start indices. -/
def wrapIdx (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

/-- Per edge: is the (wrapped) index inside `[0, 99999]`? -/
def inRange (idx : IVec S1000000x1 32) : IVec S1000000 1 :=
  Host.reduce IntOp.andi
    (andi (cmpi .sge idx (broadcastInDim S1000000x1 ![] bcast_S_S1000000x1 (constantI S_ 32 0#32)))
      (cmpi .sle idx (broadcastInDim S1000000x1 ![0, 1] bcast_S1x1_S1000000x1_0_1
        (broadcastInDim S1x1 ![1] bcast_S1_S1x1_1 (constantI S1 32 99999#32)))))
    (constantI S_ 1 1#1) reducesTo_S1000000x1_S1000000_d1 h_S_

/-- The gather with the rows of out-of-range indices replaced by a filler. -/
def takeFill {F : FTy → Type} [FloatOps F] (hid : FVec F S100000x64 .f32) (src : IVec S1000000 32) :
    FVec F S1000000x64 .f32 :=
  select (broadcastInDim S1000000x64 ![0] bcast_S1000000_S1000000x64_0 (inRange (wrapIdx src)))
    (Host.gather gather_S100000x64_S1000000x1_S1000000x64_1_0_n_n_0_1_164 hid (wrapIdx src))
    (broadcastInDim S1000000x64 ![] bcast_S_S1000000x64 (constant S_ .f32 0x7FC00000#32))

/-- A left fold by bitwise and, started at one, over one-bit words that are all one, is one. -/
private theorem foldl_andi_all_one {ι : Type} (f : ι → BitVec 1) :
    ∀ (l : List ι) (init : BitVec 1), init = 1#1 → (∀ n ∈ l, f n = 1#1) →
      l.foldl (fun r n => IntOp.andi r (f n)) init = 1#1
  | [], init, h, _ => h
  | a :: l, init, h, hl => by
    rw [List.foldl_cons]
    exact foldl_andi_all_one f l _ (IntOp.andi_eq_one.2 ⟨h, hl a List.mem_cons_self⟩)
      (fun n hn => hl n (List.mem_cons_of_mem _ hn))

/-- A reduction by bitwise and, started at one, of an array of one-bit words that are all one, is one
    at every result index. -/
private theorem reduce_andi_one {s t u : Shape} {axes : List (Fin s.rank)} (x : s.Idx → BitVec 1)
    (init : u.Idx → BitVec 1) (h : s.ReducesTo axes t) (hu : 0 < u.numel)
    (hi : init (Shape.Idx.first hu) = 1#1) (hx : ∀ i, x i = 1#1) (j : t.Idx) :
    Host.reduce IntOp.andi x init h hu j = 1#1 := by
  rw [Host.reduce_eq_foldl]
  exact foldl_andi_all_one x _ _ hi (fun n _ => hx n)

/-- One index: a word `s` with `-100000 ≤ s < 100000` (signed), replaced by `s + 100000` when negative,
    lands in `[0, 99999]`, so both range tests give one. -/
private theorem wrap_word_inRange (s : BitVec 32) (hlo : -100000 ≤ s.toInt) (hhi : s.toInt < 100000) :
    IntOp.andi (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  have h0 : (0#32 : BitVec 32).toInt = 0 := by decide
  have h1 : (99999#32 : BitVec 32).toInt = 99999 := by decide
  have h2 : (100000#32 : BitVec 32).toInt = 100000 := by decide
  rw [IntOp.andi_eq_one, IntOp.cmpi_sge, IntOp.cmpi_sle, h0, h1]
  by_cases hneg : s.toInt < 0
  · have hc : IntOp.cmpi .slt s 0#32 = 1#1 := IntOp.cmpi_slt.2 (by rw [h0]; exact hneg)
    have hadd : (IntOp.addi s 100000#32).toInt = s.toInt + 100000 := by
      show (s + 100000#32).toInt = _
      rw [BitVec.toInt_add, h2, Int.bmod_eq_of_le (by push_cast; omega) (by push_cast; omega)]
    rw [hc, select_one, hadd]
    omega
  · have hc : IntOp.cmpi .slt s 0#32 = 0#1 :=
      eq_zero_of_ne_one (fun hc => hneg (by have := IntOp.cmpi_slt.1 hc; rwa [h0] at this))
    rw [hc, select_zero]
    omega

/-- With every index in `[-100000, 100000)` no row is replaced. -/
theorem takeFill_eq_gather {F : FTy → Type} [FloatOps F] (hid : FVec F S100000x64 .f32) (src : IVec S1000000 32)
    (h : ∀ e : S1000000.Idx, -100000 ≤ (src e).toInt ∧ (src e).toInt < 100000) :
    takeFill hid src = Host.gather gather_S100000x64_S1000000x1_S1000000x64_1_0_n_n_0_1_164 hid (wrapIdx src) := by
  funext j
  -- every edge passes the range test: the test is an and over a single entry, which is one
  have hall : ∀ e : S1000000.Idx, inRange (wrapIdx src) e = 1#1 := by
    intro e
    refine reduce_andi_one _ _ _ _ rfl (fun i => ?_) e
    -- row `i 0` of the one-column matrix holds the wrapped index of edge `i 0`
    have hw : wrapIdx src i = Scalar.select (IntOp.cmpi .slt (src (ix1 ⟨(i 0).val, idx2_lt0 i⟩)) 0#32)
        (IntOp.addi (src (ix1 ⟨(i 0).val, idx2_lt0 i⟩)) 100000#32) (src (ix1 ⟨(i 0).val, idx2_lt0 i⟩)) := by
      unfold wrapIdx
      refine (broadcastInDim_apply _ _ _ i (ix1 ⟨(i 0).val, idx2_lt0 i⟩) (fun a => ?_)).trans rfl
      obtain rfl : a = 0 := Subsingleton.elim _ _
      rfl
    show IntOp.andi (IntOp.cmpi .sge (wrapIdx src i) 0#32) (IntOp.cmpi .sle (wrapIdx src i) 99999#32) = 1#1
    rw [hw]
    exact wrap_word_inRange _ (h _).1 (h _).2
  -- the mask laid along the rows reads, at `j`, the test of edge `j 0`: one, so the gathered row is kept
  have hm : broadcastInDim S1000000x64 ![0] bcast_S1000000_S1000000x64_0 (inRange (wrapIdx src)) j = 1#1 := by
    refine (broadcastInDim_apply _ _ _ j (ix1 ⟨(j 0).val, idx2_lt0 j⟩) (fun a => ?_)).trans (hall _)
    obtain rfl : a = 0 := Subsingleton.elim _ _
    rfl
  unfold takeFill
  rw [select_apply, hm, select_one]

end Cert.EdgeConv

end
-- ==== Proof.TakeRead.lean ====
/-
  Reading the gather's host operations in three stages. The twenty-three operations that gather the source nodes'
  features fall into three groups: eight that wrap a negative index (add 100000 to it) and lay the indices out as
  a column; ten that test each wrapped index against the range [0, 99999]; five that gather the rows, spread the
  test over the 64 columns and put a filler where the test fails. Each group is read by itself, from ANY contents
  of the buffers before it, and the three readings compose to the filled gather of the node features at the source
  indices.
-/
import proofs.«414414_j11811160064041_1_alg».proof.Proof.Gen.KernelIdeal.Launch
import proofs.«414414_j11811160064041_1_alg».proof.Proof.Take
import Idealize.ShloMosaic.Lib.StableHlo.Run
import Idealize.ShloMosaic.PureOps.Ideal

noncomputable section

open scoped BigOperators

namespace Cert.EdgeConv

open Idealize.ShloMosaic Idealize.ShloMosaic.TcCoe Idealize.SL.Sem Idealize.ShloMosaic.StableHlo
open Cert.KernelIdeal Cert.KernelIdeal.Gen

variable {F : FTy → Type} [FloatOps F]

/-- Running one list of host operations after another. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, after_cons, ih]

/-- The eight operations that wrap the negative indices and lay them out as a column. -/
abbrev wrapOps : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1000000, .i32⟩) (broadcastInDim S1000000 ![] bcast_S_S1000000),
    StableHlo.TRef.binary (.of main_arg2 : StableHlo.TRef sig ⟨S1000000, .i32⟩) (.of main_call0_v0 : StableHlo.TRef sig ⟨S1000000, .i32⟩) (.of main_call0_v1 : StableHlo.TRef sig ⟨S1000000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1000000, .i32⟩) (broadcastInDim S1000000 ![] bcast_S_S1000000),
    StableHlo.TRef.binary (.of main_arg2 : StableHlo.TRef sig ⟨S1000000, .i32⟩) (.of main_call0_v2 : StableHlo.TRef sig ⟨S1000000, .i32⟩) (.of main_call0_v3 : StableHlo.TRef sig ⟨S1000000, .i32⟩) addi,
    StableHlo.TRef.ternary (.of main_call0_v1 : StableHlo.TRef sig ⟨S1000000, .i1⟩) (.of main_call0_v3 : StableHlo.TRef sig ⟨S1000000, .i32⟩) (.of main_arg2 : StableHlo.TRef sig ⟨S1000000, .i32⟩) (.of main_call0_v4 : StableHlo.TRef sig ⟨S1000000, .i32⟩) select,
    StableHlo.TRef.unary main_call0_call0.v0 (.of main_call0_v5 : StableHlo.TRef sig ⟨S1000000x1, .i32⟩) (broadcastInDim S1000000x1 ![0] bcast_S1000000_S1000000x1_0) ]

/-- The ten operations that test each wrapped index against [0, 99999]. -/
abbrev rangeOps : List (HloOp τ sig (Elt F)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1000000x1, .i32⟩) (broadcastInDim S1000000x1 ![] bcast_S_S1000000x1),
    StableHlo.TRef.binary (.of main_call0_v5 : StableHlo.TRef sig ⟨S1000000x1, .i32⟩) (.of main_call0_v6 : StableHlo.TRef sig ⟨S1000000x1, .i32⟩) (.of main_call0_v7 : StableHlo.TRef sig ⟨S1000000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1000000x1, .i32⟩) (broadcastInDim S1000000x1 ![0, 1] bcast_S1x1_S1000000x1_0_1),
    StableHlo.TRef.binary (.of main_call0_v5 : StableHlo.TRef sig ⟨S1000000x1, .i32⟩) (.of main_call0_v9 : StableHlo.TRef sig ⟨S1000000x1, .i32⟩) (.of main_call0_v10 : StableHlo.TRef sig ⟨S1000000x1, .i1⟩) (cmpi .sle),
    StableHlo.TRef.binary (.of main_call0_v7 : StableHlo.TRef sig ⟨S1000000x1, .i1⟩) (.of main_call0_v10 : StableHlo.TRef sig ⟨S1000000x1, .i1⟩) (.of main_call0_v11 : StableHlo.TRef sig ⟨S1000000x1, .i1⟩) andi,
    StableHlo.TRef.nullary (.of main_call0_c_3 : StableHlo.TRef sig ⟨S_, .i1⟩) (constantI S_ 1 1#1),
    StableHlo.TRef.binary (.of main_call0_v11 : StableHlo.TRef sig ⟨S1000000x1, .i1⟩) (.of main_call0_c_3 : StableHlo.TRef sig ⟨S_, .i1⟩) (.of main_call0_v12 : StableHlo.TRef sig ⟨S1000000, .i1⟩) (fun x v => Host.reduce IntOp.andi x v reducesTo_S1000000x1_S1000000_d1 h_S_) ]

/-- The five operations that gather, spread the test over the columns, and fill. -/
abbrev fillOps : List (HloOp τ sig (Elt F)) :=
  [ StableHlo.TRef.binary (.of main_arg0 : StableHlo.TRef sig ⟨S100000x64, .f32⟩) (.of main_call0_v5 : StableHlo.TRef sig ⟨S1000000x1, .i32⟩) (.of main_call0_v13 : StableHlo.TRef sig ⟨S1000000x64, .f32⟩) (fun x i => Host.gather gather_S100000x64_S1000000x1_S1000000x64_1_0_n_n_0_1_164 x i),
    StableHlo.TRef.unary (.of main_call0_v12 : StableHlo.TRef sig ⟨S1000000, .i1⟩) (.of main_call0_v14 : StableHlo.TRef sig ⟨S1000000x64, .i1⟩) (broadcastInDim S1000000x64 ![0] bcast_S1000000_S1000000x64_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1000000x64, .f32⟩) (broadcastInDim S1000000x64 ![] bcast_S_S1000000x64),
    StableHlo.TRef.ternary (.of main_call0_v14 : StableHlo.TRef sig ⟨S1000000x64, .i1⟩) (.of main_call0_v13 : StableHlo.TRef sig ⟨S1000000x64, .f32⟩) (.of main_call0_v15 : StableHlo.TRef sig ⟨S1000000x64, .f32⟩) (.of main_v0 : StableHlo.TRef sig ⟨S1000000x64, .f32⟩) select ]

theorem take_ops_eq : (hostOps0 : List (HloOp τ sig (Elt F))) = wrapOps ++ (rangeOps ++ fillOps) := rfl

variable (V : Valuation τ sig (Elt F))

theorem wrap_idx : StableHlo.after wrapOps V (Proc.devRef .tc main_call0_v5) = wrapIdx (V (Proc.devRef .tc main_arg2)) := by
  unfold wrapIdx
  after_results
  rfl

theorem wrap_keeps_nodeFeat : StableHlo.after wrapOps V (Proc.devRef .tc main_arg0) = V (Proc.devRef .tc main_arg0) := by
  after_results

theorem range_mask : StableHlo.after rangeOps V (Proc.devRef .tc main_call0_v12) = inRange (V (Proc.devRef .tc main_call0_v5)) := by
  unfold inRange
  after_results
  simp only [cast_cast, cast_eq]

theorem range_keeps_idx : StableHlo.after rangeOps V (Proc.devRef .tc main_call0_v5) = V (Proc.devRef .tc main_call0_v5) := by
  after_results

theorem range_keeps_nodeFeat : StableHlo.after rangeOps V (Proc.devRef .tc main_arg0) = V (Proc.devRef .tc main_arg0) := by
  after_results

theorem fill_result : StableHlo.after fillOps V (Proc.devRef .tc main_v0)
    = select (broadcastInDim S1000000x64 ![0] bcast_S1000000_S1000000x64_0 (V (Proc.devRef .tc main_call0_v12)))
        (Host.gather gather_S100000x64_S1000000x1_S1000000x64_1_0_n_n_0_1_164 (V (Proc.devRef .tc main_arg0)) (V (Proc.devRef .tc main_call0_v5)))
        (broadcastInDim S1000000x64 ![] bcast_S_S1000000x64 (constant (F := F) S_ .f32 0x7FC00000#32)) := by
  after_results
  rfl

/-- The gather's operations, from any contents: the gathered-features buffer ends at the filled gather of the
    node-features buffer at the source-indices buffer. -/
theorem take_result : StableHlo.after hostOps0 V (Proc.devRef .tc main_v0)
    = takeFill (F := F) (V (Proc.devRef .tc main_arg0)) (V (Proc.devRef .tc main_arg2)) := by
  rw [take_ops_eq, after_append, after_append, fill_result, range_mask, range_keeps_idx, range_keeps_nodeFeat,
    wrap_idx, wrap_keeps_nodeFeat]
  rfl

end Cert.EdgeConv

end
-- ==== Proof.HostEdge.lean ====
/-
  What the edge layer's region finds in the five arrays its input windows read. Before the first pallas_call the
  program's host operations gather the source nodes' feature rows (with the filler for out-of-range indices), cut the
  first weight matrix into its upper and lower 64 rows, and read the first bias as a one-row matrix; the edge
  features are an argument, untouched. Each array is read off the list of host operations.
-/
import proofs.«414414_j11811160064041_1_alg».proof.Proof.Gen.KernelIdeal.Frame
import proofs.«414414_j11811160064041_1_alg».proof.Proof.Take
import proofs.«414414_j11811160064041_1_alg».proof.Proof.TakeRead
import Idealize.ShloMosaic.Lib.StableHlo.Run
import Idealize.ShloMosaic.PureOps.Ideal

noncomputable section

open scoped BigOperators

namespace Cert.EdgeConv

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The edge features are as launched. -/
theorem entry0_edgeFeat (c : Dev nD) :
    V2 m ρ c main_arg1 = m ((c : Thread nD τ).loc main_arg1) := by
  show StableHlo.after hostOps0_1 (StableHlo.after hostOps0 (W0 m ρ c)) (Proc.devRef .tc main_arg1) = _
  after_results

/-- The gathered source-node features: the filled gather of the node features at the source indices. -/
theorem entry0_srcFeat (c : Dev nD) :
    V2 m ρ c main_v0 = takeFill (F := Ideal) (m ((c : Thread nD τ).loc main_arg0)) (m ((c : Thread nD τ).loc main_arg2)) := by
  show StableHlo.after hostOps0_1 (StableHlo.after hostOps0 (W0 m ρ c)) (Proc.devRef .tc main_v0) = _
  generalize hW : StableHlo.after hostOps0 (W0 m ρ c) = W
  after_results
  rw [← hW]
  exact take_result (W0 m ρ c)

/-- The upper 64 rows of the first weight matrix. -/
theorem entry0_wTop (c : Dev nD) :
    V2 m ρ c main_v1 = extractStridedSlice S64x64 ![0, 0] (m ((c : Thread nD τ).loc main_arg4)) slices_S128x64_S64x64_0_0 := by
  show StableHlo.after hostOps0_1 (StableHlo.after hostOps0 (W0 m ρ c)) (Proc.devRef .tc main_v1) = _
  after_results

/-- The lower 64 rows of the first weight matrix. -/
theorem entry0_wBot (c : Dev nD) :
    V2 m ρ c main_v2 = extractStridedSlice S64x64 ![64, 0] (m ((c : Thread nD τ).loc main_arg4)) slices_S128x64_S64x64_64_0 := by
  show StableHlo.after hostOps0_1 (StableHlo.after hostOps0 (W0 m ρ c)) (Proc.devRef .tc main_v2) = _
  after_results

/-- The first bias as a one-row matrix. -/
theorem entry0_bias (c : Dev nD) :
    V2 m ρ c main_v3 = shapeCast S1x64 (m ((c : Thread nD τ).loc main_arg5)) shapeCasts_S64_S1x64 := by
  show StableHlo.after hostOps0_1 (StableHlo.after hostOps0 (W0 m ρ c)) (Proc.devRef .tc main_v3) = _
  after_results
  rfl

end Cert.EdgeConv

end
-- ==== Proof.HostNode.lean ====
/-
  What the node layer's region finds in the five arrays its input windows read. Between the two pallas_calls the
  program's host operations average the messages per destination node — a scatter-add of the messages into zeros, a
  scatter-add of ones for the counts, the counts raised to at least one, and the quotient —, cut the second weight
  matrix into its upper and lower 64 rows and read the second bias as a one-row matrix; the node features are an
  argument, untouched by the first region and by every host operation. The averaging is kept as ONE function of the
  messages and the destination indices: both programs apply the same operations, so it is never opened.
-/
import proofs.«414414_j11811160064041_1_alg».proof.Proof.Gen.KernelIdeal.Frame
import Idealize.ShloMosaic.Lib.StableHlo.Run
import Idealize.ShloMosaic.PureOps.Ideal

noncomputable section

open scoped BigOperators

namespace Cert.EdgeConv

open Idealize.ShloMosaic Idealize.ShloMosaic.TcCoe Idealize.SL.Sem Idealize.ShloMosaic.StableHlo
open Cert.KernelIdeal Cert.KernelIdeal.Gen

/-- The mean of the incoming messages per destination node: the sum of the messages with that destination over the
    larger of their count and one. -/
def meanMsg (msg : FVec Ideal S1000000x64 .f32) (dst : IVec S1000000 32) : FVec Ideal S100000x64 .f32 :=
  Host.divf
    (Host.scatterAdd scatter_S100000x64_S1000000x1_S1000000x64_1_0_0_1
      (broadcastInDim S100000x64 ![] bcast_S_S100000x64 (constant (F := Ideal) S_ .f32 0x00000000#32))
      (broadcastInDim S1000000x1 ![0] bcast_S1000000_S1000000x1_0 dst) msg)
    (broadcastInDim S100000x64 ![0, 1] bcast_S100000x1_S100000x64_0_1
      (broadcastInDim S100000x1 ![0] bcast_S100000_S100000x1_0
        (maximumf
          (Host.scatterAdd scatter_S100000_S1000000x1_S1000000_n_0_0_1
            (broadcastInDim S100000 ![] bcast_S_S100000 (constant (F := Ideal) S_ .f32 0x00000000#32))
            (broadcastInDim S1000000x1 ![0] bcast_S1000000_S1000000x1_0 dst)
            (broadcastInDim S1000000 ![] bcast_S_S1000000 (constant (F := Ideal) S_ .f32 0x3F800000#32)))
          (broadcastInDim S100000 ![] bcast_S_S100000 (constant (F := Ideal) S_ .f32 0x3F800000#32)))))

variable (m : (ℓ : Loc nD τ sig) → Buf (Elt Ideal) ℓ) (ρ : Dev nD → PrngReg)

/-- The destination indices reach the second stretch of host operations as launched. -/
theorem mid_dst (c : Dev nD) : W3 m ρ c (Proc.devRef .tc main_arg3) = m ((c : Thread nD τ).loc main_arg3) := by
  rw [W3_of_ne m ρ c main_arg3 (by decide)]
  show StableHlo.after hostOps0_1 (StableHlo.after hostOps0 (W0 m ρ c)) (Proc.devRef .tc main_arg3) = _
  after_results

/-- The node features reach it as launched. -/
theorem mid_nodeFeat (c : Dev nD) : W3 m ρ c (Proc.devRef .tc main_arg0) = m ((c : Thread nD τ).loc main_arg0) := by
  rw [W3_of_ne m ρ c main_arg0 (by decide)]
  show StableHlo.after hostOps0_1 (StableHlo.after hostOps0 (W0 m ρ c)) (Proc.devRef .tc main_arg0) = _
  after_results

/-- The second weight matrix reaches it as launched. -/
theorem mid_weight (c : Dev nD) : W3 m ρ c (Proc.devRef .tc main_arg6) = m ((c : Thread nD τ).loc main_arg6) := by
  rw [W3_of_ne m ρ c main_arg6 (by decide)]
  show StableHlo.after hostOps0_1 (StableHlo.after hostOps0 (W0 m ρ c)) (Proc.devRef .tc main_arg6) = _
  after_results

/-- The second bias reaches it as launched. -/
theorem mid_bias (c : Dev nD) : W3 m ρ c (Proc.devRef .tc main_arg7) = m ((c : Thread nD τ).loc main_arg7) := by
  rw [W3_of_ne m ρ c main_arg7 (by decide)]
  show StableHlo.after hostOps0_1 (StableHlo.after hostOps0 (W0 m ρ c)) (Proc.devRef .tc main_arg7) = _
  after_results

/-- The mean messages: `meanMsg` of what the first region left in the messages array and the destination indices. -/
theorem entry1_mean (c : Dev nD) :
    V4 m ρ c main_v16 = meanMsg (W3 m ρ c (Proc.devRef .tc main_v4)) (m ((c : Thread nD τ).loc main_arg3)) := by
  show StableHlo.after hostOps1 (W3 m ρ c) (Proc.devRef .tc main_v16) = _
  after_results
  rw [mid_dst m ρ c]
  rfl

/-- The node features are as launched. -/
theorem entry1_nodeFeat (c : Dev nD) : V4 m ρ c main_arg0 = m ((c : Thread nD τ).loc main_arg0) := by
  show StableHlo.after hostOps1 (W3 m ρ c) (Proc.devRef .tc main_arg0) = _
  after_results
  exact mid_nodeFeat m ρ c

/-- The upper 64 rows of the second weight matrix. -/
theorem entry1_wTop (c : Dev nD) :
    V4 m ρ c main_v17 = extractStridedSlice S64x64 ![0, 0] (m ((c : Thread nD τ).loc main_arg6)) slices_S128x64_S64x64_0_0 := by
  show StableHlo.after hostOps1 (W3 m ρ c) (Proc.devRef .tc main_v17) = _
  after_results
  rw [mid_weight m ρ c]

/-- The lower 64 rows of the second weight matrix. -/
theorem entry1_wBot (c : Dev nD) :
    V4 m ρ c main_v18 = extractStridedSlice S64x64 ![64, 0] (m ((c : Thread nD τ).loc main_arg6)) slices_S128x64_S64x64_64_0 := by
  show StableHlo.after hostOps1 (W3 m ρ c) (Proc.devRef .tc main_v18) = _
  after_results
  rw [mid_weight m ρ c]

/-- The second bias as a one-row matrix. -/
theorem entry1_bias (c : Dev nD) :
    V4 m ρ c main_v19 = shapeCast S1x64 (m ((c : Thread nD τ).loc main_arg7)) shapeCasts_S64_S1x64 := by
  show StableHlo.after hostOps1 (W3 m ρ c) (Proc.devRef .tc main_v19) = _
  after_results
  rw [mid_bias m ρ c]
  rfl

end Cert.EdgeConv

end
-- ==== Proof.Slices.lean ====
/-
  The kernel's program cuts each 128 × 64 weight matrix into rows 0 … 63 and rows 64 … 127 with two unit-stride
  slices, and reads each 64-entry bias as a 1 × 64 matrix with a reshape. Entry by entry these are the upper
  half, the lower half and the one-row form of the specification.
-/
import proofs.«414414_j11811160064041_1_alg».proof.Proof.Gen.KernelIdeal
import proofs.«414414_j11811160064041_1_alg».proof.Proof.Spec
import Idealize.ShloMosaic.PureOps.Ideal
import Idealize.ShloMosaic.Lib.ValueIdx
import Idealize.ShloMosaic.Lib.Pipeline.Value

noncomputable section

open scoped BigOperators

namespace Cert.EdgeConv

open Idealize.ShloMosaic Idealize.ShloMosaic.ValueIdx Cert.KernelIdeal Cert.KernelIdeal.Gen

/-- The slice at row offset 0 is the upper half. -/
theorem slice_top (W : FVec Ideal S128x64 .f32) :
    extractStridedSlice S64x64 ![0, 0] W slices_S128x64_S64x64_0_0 = topHalf W := by
  funext j
  unfold topHalf
  refine extractStridedSlice_apply _ W _ j _ fun a => ?_
  match a with
  | ⟨0, _⟩ => show (j 0).val = 0 + (j 0).val; omega
  | ⟨1, _⟩ => show (j 1).val = 0 + (j 1).val; omega

/-- The slice at row offset 64 is the lower half. -/
theorem slice_bot (W : FVec Ideal S128x64 .f32) :
    extractStridedSlice S64x64 ![64, 0] W slices_S128x64_S64x64_64_0 = botHalf W := by
  funext j
  unfold botHalf
  refine extractStridedSlice_apply _ W _ j _ fun a => ?_
  match a with
  | ⟨0, _⟩ => show (j 0).val + 64 = 64 + (j 0).val; omega
  | ⟨1, _⟩ => show (j 1).val = 0 + (j 1).val; omega

/-- The reshape of a 64-vector to 1 × 64 reads entry `(0, q)` at `q`. -/
theorem reshape_row (b : FVec Ideal S64 .f32) :
    shapeCast S1x64 b shapeCasts_S64_S1x64 = asRow b := by
  funext j
  unfold asRow
  refine (shapeCast_addUnit_apply (![64] : Fin 1 → Nat) b shapeCasts_S64_S1x64 j).trans ?_
  refine congrArg b (funext fun a => ?_)
  match a with
  | ⟨0, _⟩ => rfl

end Cert.EdgeConv

end
-- ==== Proof.Result.lean ====
/-
  The whole step as one function of the eight arguments. Messages: the layer of the edge features and the source
  nodes' features (the node features gathered at the wrapped source indices) under the first weights and bias.
  Mean messages: per destination node. Result: the layer of the mean messages and the node features under the
  second weights and bias. Both programs are shown to end at this function of their arguments.
-/
import proofs.«414414_j11811160064041_1_alg».proof.Proof.Spec
import proofs.«414414_j11811160064041_1_alg».proof.Proof.Take
import proofs.«414414_j11811160064041_1_alg».proof.Proof.HostNode

noncomputable section

open scoped BigOperators

namespace Cert.EdgeConv

open Idealize.ShloMosaic Cert.KernelIdeal Cert.KernelIdeal.Gen

/-- One message-passing step: node features, edge features, source and destination indices, the two layers'
    weights and biases. -/
def resultOf (hid : FVec Ideal S100000x64 .f32) (ef : FVec Ideal S1000000x64 .f32) (src dst : IVec S1000000 32)
    (W1 : FVec Ideal S128x64 .f32) (b1 : FVec Ideal S64 .f32) (W2 : FVec Ideal S128x64 .f32) (b2 : FVec Ideal S64 .f32) :
    FVec Ideal S100000x64 .f32 :=
  mlp (R := 100000)
    (meanMsg
      (mlp (R := 1000000) ef (Host.gather gather_S100000x64_S1000000x1_S1000000x64_1_0_n_n_0_1_164 hid (wrapIdx src))
        (topHalf W1) (botHalf W1) (asRow b1))
      dst)
    hid (topHalf W2) (botHalf W2) (asRow b2)

end Cert.EdgeConv

end
-- ==== Proof.KernelValue.lean ====
/-
  The kernel's program ends at the step's function. Reading backwards from the result buffer: it is what the node
  layer's region leaves in its output array, the layer of the five arrays that region found; the first of these
  is the mean of the messages, the messages being what the edge layer's region left in its output array, the layer
  of the five arrays THAT region found; and the gathered source features among them, filled where an index is out
  of range, are the plain gather because every source index is in range.
-/
import proofs.«414414_j11811160064041_1_alg».proof.Proof.Gen.KernelIdeal.Frame
import proofs.«414414_j11811160064041_1_alg».proof.Proof.EdgeArray
import proofs.«414414_j11811160064041_1_alg».proof.Proof.NodeArray
import proofs.«414414_j11811160064041_1_alg».proof.Proof.HostEdge
import proofs.«414414_j11811160064041_1_alg».proof.Proof.HostNode
import proofs.«414414_j11811160064041_1_alg».proof.Proof.Slices
import proofs.«414414_j11811160064041_1_alg».proof.Proof.Take
import proofs.«414414_j11811160064041_1_alg».proof.Proof.Result

noncomputable section

open scoped BigOperators

namespace Cert.EdgeConv

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The messages array after the first region: the edge layer of the edge features and the gathered source
    features. -/
theorem messages_value (c : Dev nD)
    (hsrc : ∀ e : S1000000.Idx, -100000 ≤ (m ((c : Thread nD τ).loc main_arg2) e).toInt
      ∧ (m ((c : Thread nD τ).loc main_arg2) e).toInt < 100000) :
    W3 m ρ c (Proc.devRef .tc main_v4)
      = mlp (R := 1000000) (m ((c : Thread nD τ).loc main_arg1))
          (Host.gather gather_S100000x64_S1000000x1_S1000000x64_1_0_n_n_0_1_164 (m ((c : Thread nD τ).loc main_arg0))
            (wrapIdx (m ((c : Thread nD τ).loc main_arg2))))
          (topHalf (m ((c : Thread nD τ).loc main_arg4))) (botHalf (m ((c : Thread nD τ).loc main_arg4)))
          (asRow (m ((c : Thread nD τ).loc main_arg5))) := by
  refine (W3_arr m ρ c 5).trans ?_
  rw [edge_array (V2 m ρ) c]
  show mlp (R := 1000000) (V2 m ρ c main_arg1) (V2 m ρ c main_v0) (V2 m ρ c main_v1) (V2 m ρ c main_v2) (V2 m ρ c main_v3) = _
  rw [entry0_edgeFeat m ρ c, entry0_srcFeat m ρ c, entry0_wTop m ρ c, entry0_wBot m ρ c, entry0_bias m ρ c,
    slice_top, slice_bot, reshape_row, takeFill_eq_gather _ _ hsrc]

/-- The result buffer at the last segment boundary: the step's function of the arguments. -/
theorem kernel_result (c : Dev nD)
    (hsrc : ∀ e : S1000000.Idx, -100000 ≤ (m ((c : Thread nD τ).loc main_arg2) e).toInt
      ∧ (m ((c : Thread nD τ).loc main_arg2) e).toInt < 100000) :
    W5 m ρ c (Proc.devRef .tc main_v20)
      = resultOf (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  refine (W5_arr m ρ c 5).trans ?_
  rw [node_array (V4 m ρ) c]
  show mlp (R := 100000) (V4 m ρ c main_v16) (V4 m ρ c main_arg0) (V4 m ρ c main_v17) (V4 m ρ c main_v18) (V4 m ρ c main_v19) = _
  rw [entry1_mean m ρ c, entry1_nodeFeat m ρ c, entry1_wTop m ρ c, entry1_wBot m ρ c, entry1_bias m ρ c,
    slice_top, slice_bot, reshape_row, messages_value m ρ c hsrc]
  rfl

end Cert.EdgeConv

end
-- ==== Proof.RefMlp.lean ====
/-
  The reference's linear layer, entry by entry: it joins the two row blocks side by side into 128 columns,
  multiplies by the whole 128 × 64 weight matrix, adds the bias broadcast down the rows and takes the positive
  part. A sum over the 128 joined columns is the sum over the first block's 64 plus the sum over the second
  block's 64, which is `mlpAt` at the two halves of the weight matrix.
-/
import proofs.«414414_j11811160064041_1_alg».proof.Proof.Gen.ReferenceIdeal
import proofs.«414414_j11811160064041_1_alg».proof.Proof.Gen.ReferenceIdeal.Read
import proofs.«414414_j11811160064041_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.EdgeConv

open Idealize.ShloMosaic Idealize.ShloMosaic.ValueIdx Cert.ReferenceIdeal Cert.ReferenceIdeal.Gen

/-- The product of a 1000000 × 128 block with the weight matrix, entry by entry. -/
private theorem dot_edge (l : FVec Ideal S1000000x128 .f32) (W : FVec Ideal S128x64 .f32) (p : Fin 1000000) (q : Fin 64) :
    Host.dotGeneral dot_S1000000x128_S128x64_S1000000x64_1_0_0_1_n_n none l W (ix2 p q)
      = ∑ k : Fin 128, l (ix2 p k) * W (ix2 k q) := by
  simp only [Host.dotGeneral]
  rw [Ideal.dotGeneral_apply, ← Equiv.sum_comp (contrEquiv1 dot_S1000000x128_S128x64_S1000000x64_1_0_0_1_n_n 128 rfl rfl).symm]
  refine Finset.sum_congr rfl fun k _ => ?_
  have hk := contrEquiv1_symm_val dot_S1000000x128_S128x64_S1000000x64_1_0_0_1_n_n 128 rfl rfl k
  have el : dot_S1000000x128_S128x64_S1000000x64_1_0_0_1_n_n.lhsIdx (ix2 p q)
      ((contrEquiv1 dot_S1000000x128_S128x64_S1000000x64_1_0_0_1_n_n 128 rfl rfl).symm k) = ix2 p k :=
    funext fun a => Fin.ext (by
      match a with
      | ⟨0, _⟩ => exact Read.lhs_main_v8_0 _ _
      | ⟨1, _⟩ => exact (Read.lhs_main_v8_1 _ _).trans hk)
  have er : dot_S1000000x128_S128x64_S1000000x64_1_0_0_1_n_n.rhsIdx (ix2 p q)
      ((contrEquiv1 dot_S1000000x128_S128x64_S1000000x64_1_0_0_1_n_n 128 rfl rfl).symm k) = ix2 k q :=
    funext fun a => Fin.ext (by
      match a with
      | ⟨0, _⟩ => exact (Read.rhs_main_v8_0 _ _).trans hk
      | ⟨1, _⟩ => exact Read.rhs_main_v8_1 _ _)
  rw [el, er]

/-- The reference's edge layer over all 1000000 edges. -/
theorem ref_edge (x y : FVec Ideal S1000000x64 .f32) (W : FVec Ideal S128x64 .f32) (b : FVec Ideal S64 .f32) :
    maximumf (F := Ideal)
      (addf (Host.dotGeneral dot_S1000000x128_S128x64_S1000000x64_1_0_0_1_n_n none
          (concatenate S1000000x128 1 [⟨S1000000x64, x⟩, ⟨S1000000x64, y⟩] concatenates_S1000000x64_S1000000x64_S1000000x128_d1) W)
        (broadcastInDim S1000000x64 ![0, 1] bcast_S1x64_S1000000x64_0_1 (broadcastInDim S1x64 ![1] bcast_S64_S1x64_1 b)))
      (broadcastInDim S1000000x64 ![] bcast_S_S1000000x64 (constant (F := Ideal) S_ .f32 0x00000000#32))
    = mlp (R := 1000000) x y (topHalf W) (botHalf W) (asRow b) := by
  funext j
  obtain ⟨p, q, rfl⟩ : ∃ (p : Fin 1000000) (q : Fin 64), j = ix2 p q := ⟨j 0, j 1, eq_ix2 j⟩
  rw [mlp_ix2]
  unfold mlpAt
  rw [maximumf_apply, addf_apply, dot_edge]
  rw [sum128_split]
  have hl : ∀ k : Fin 64, concatenate S1000000x128 1 [⟨S1000000x64, x⟩, ⟨S1000000x64, y⟩]
      concatenates_S1000000x64_S1000000x64_S1000000x128_d1 (ix2 p ⟨k.val, by omega⟩) = x (ix2 p k) := fun k =>
    concatenate_pair_apply_left (1 : Fin S1000000x128.rank) x y _ _ rfl (ix2 p k)
      (fun c => by match c with | ⟨0, _⟩ => rfl | ⟨1, _⟩ => rfl)
  have hr : ∀ k : Fin 64, concatenate S1000000x128 1 [⟨S1000000x64, x⟩, ⟨S1000000x64, y⟩]
      concatenates_S1000000x64_S1000000x64_S1000000x128_d1 (ix2 p ⟨k.val + 64, by omega⟩) = y (ix2 p k) := fun k =>
    concatenate_pair_apply_right (1 : Fin S1000000x128.rank) x y _ _ rfl rfl (ix2 p k)
      (fun c hc => by match c with | ⟨0, _⟩ => rfl | ⟨1, _⟩ => exact absurd rfl hc) rfl
  have hb : broadcastInDim S1000000x64 ![0, 1] bcast_S1x64_S1000000x64_0_1 (broadcastInDim S1x64 ![1] bcast_S64_S1x64_1 b) (ix2 p q)
      = asRow b (ix2 0 q) := by
    refine (broadcastInDim_apply _ bcast_S1x64_S1000000x64_0_1 _ (ix2 p q) (ix2 (0 : Fin 1) q) (fun a => ?_)).trans ?_
    · match a with
      | ⟨0, _⟩ => show 0 = if (1 : Nat) = 1 then 0 else p.val; rw [if_pos rfl]
      | ⟨1, _⟩ => show q.val = if (64 : Nat) = 1 then 0 else q.val; rw [if_neg (by decide)]
    · refine (broadcastInDim_apply _ bcast_S64_S1x64_1 b (ix2 (0 : Fin 1) q) (ix1 q) (fun a => ?_)).trans ?_
      · match a with
        | ⟨0, _⟩ => show q.val = if (64 : Nat) = 1 then 0 else q.val; rw [if_neg (by decide)]
      · exact (asRow_ix2 b 0 q).symm
  have hz : broadcastInDim S1000000x64 ![] bcast_S_S1000000x64 (constant (F := Ideal) S_ .f32 0x00000000#32) (ix2 p q) = 0 := by
    refine (broadcastInDim_apply _ bcast_S_S1000000x64 _ (ix2 p q) ix0 (fun a => a.elim0)).trans ?_
    exact Ideal.ofBits_zero_f32
  rw [hb, hz]
  simp only [hl, hr, topHalf_ix2, botHalf_ix2]

/-- The product of a 100000 × 128 block with the weight matrix, entry by entry. -/
private theorem dot_node (l : FVec Ideal S100000x128 .f32) (W : FVec Ideal S128x64 .f32) (p : Fin 100000) (q : Fin 64) :
    Host.dotGeneral dot_S100000x128_S128x64_S100000x64_1_0_0_1_n_n none l W (ix2 p q)
      = ∑ k : Fin 128, l (ix2 p k) * W (ix2 k q) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 p q)
      ((contrEquiv1 dot_S100000x128_S128x64_S100000x64_1_0_0_1_n_n 128 rfl rfl).symm k) = ix2 p k :=
    funext fun a => Fin.ext (by
      match a with
      | ⟨0, _⟩ => exact Read.lhs_main_v26_0 _ _
      | ⟨1, _⟩ => exact (Read.lhs_main_v26_1 _ _).trans hk)
  have er : dot_S100000x128_S128x64_S100000x64_1_0_0_1_n_n.rhsIdx (ix2 p q)
      ((contrEquiv1 dot_S100000x128_S128x64_S100000x64_1_0_0_1_n_n 128 rfl rfl).symm k) = ix2 k q :=
    funext fun a => Fin.ext (by
      match a with
      | ⟨0, _⟩ => exact (Read.rhs_main_v26_0 _ _).trans hk
      | ⟨1, _⟩ => exact Read.rhs_main_v26_1 _ _)
  rw [el, er]

/-- The reference's node layer over all 100000 nodes. -/
theorem ref_node (x y : FVec Ideal S100000x64 .f32) (W : FVec Ideal S128x64 .f32) (b : FVec Ideal S64 .f32) :
    maximumf (F := Ideal)
      (addf (Host.dotGeneral dot_S100000x128_S128x64_S100000x64_1_0_0_1_n_n none
          (concatenate S100000x128 1 [⟨S100000x64, x⟩, ⟨S100000x64, y⟩] concatenates_S100000x64_S100000x64_S100000x128_d1) W)
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
    = mlp (R := 100000) x y (topHalf W) (botHalf W) (asRow b) := by
  funext j
  obtain ⟨p, q, rfl⟩ : ∃ (p : Fin 100000) (q : Fin 64), j = ix2 p q := ⟨j 0, j 1, eq_ix2 j⟩
  rw [mlp_ix2]
  unfold mlpAt
  rw [maximumf_apply, addf_apply, dot_node]
  rw [sum128_split]
  have hl : ∀ k : Fin 64, concatenate S100000x128 1 [⟨S100000x64, x⟩, ⟨S100000x64, y⟩]
      concatenates_S100000x64_S100000x64_S100000x128_d1 (ix2 p ⟨k.val, by omega⟩) = x (ix2 p k) := fun k =>
    concatenate_pair_apply_left (1 : Fin S100000x128.rank) x y _ _ rfl (ix2 p k)
      (fun c => by match c with | ⟨0, _⟩ => rfl | ⟨1, _⟩ => rfl)
  have hr : ∀ k : Fin 64, concatenate S100000x128 1 [⟨S100000x64, x⟩, ⟨S100000x64, y⟩]
      concatenates_S100000x64_S100000x64_S100000x128_d1 (ix2 p ⟨k.val + 64, by omega⟩) = y (ix2 p k) := fun k =>
    concatenate_pair_apply_right (1 : Fin S100000x128.rank) x y _ _ rfl rfl (ix2 p k)
      (fun c hc => by match c with | ⟨0, _⟩ => rfl | ⟨1, _⟩ => exact absurd rfl hc) rfl
  have hb : broadcastInDim S100000x64 ![0, 1] bcast_S1x64_S100000x64_0_1 (broadcastInDim S1x64 ![1] bcast_S64_S1x64_1 b) (ix2 p q)
      = asRow b (ix2 0 q) := by
    refine (broadcastInDim_apply _ bcast_S1x64_S100000x64_0_1 _ (ix2 p q) (ix2 (0 : Fin 1) q) (fun a => ?_)).trans ?_
    · match a with
      | ⟨0, _⟩ => show 0 = if (1 : Nat) = 1 then 0 else p.val; rw [if_pos rfl]
      | ⟨1, _⟩ => show q.val = if (64 : Nat) = 1 then 0 else q.val; rw [if_neg (by decide)]
    · refine (broadcastInDim_apply _ bcast_S64_S1x64_1 b (ix2 (0 : Fin 1) q) (ix1 q) (fun a => ?_)).trans ?_
      · match a with
        | ⟨0, _⟩ => show q.val = if (64 : Nat) = 1 then 0 else q.val; rw [if_neg (by decide)]
      · exact (asRow_ix2 b 0 q).symm
  have hz : broadcastInDim S100000x64 ![] bcast_S_S100000x64 (constant (F := Ideal) S_ .f32 0x00000000#32) (ix2 p q) = 0 := by
    refine (broadcastInDim_apply _ bcast_S_S100000x64 _ (ix2 p q) ix0 (fun a => a.elim0)).trans ?_
    exact Ideal.ofBits_zero_f32
  rw [hb, hz]
  simp only [hl, hr, topHalf_ix2, botHalf_ix2]

end Cert.EdgeConv

end
-- ==== Proof.RefValue.lean ====
/-
  The reference ends at the step's function. Its program is a straight line of host operations; its last stage is
  the node layer in the joined form, applied to the mean of the messages, which are the edge layer in the joined
  form. Each joined layer is the split layer (the 128-term sum cut in two), and what is left differs from the
  step's function only in which program's copy of the gather and scatter dimension numbers it names.
-/
import proofs.«414414_j11811160064041_1_alg».proof.Proof.Gen.ReferenceIdeal.Read
import proofs.«414414_j11811160064041_1_alg».proof.Proof.RefMlp
import proofs.«414414_j11811160064041_1_alg».proof.Proof.Result

noncomputable section

open scoped BigOperators

namespace Cert.EdgeConv

open Idealize.ShloMosaic

set_option maxRecDepth 65536 in
theorem ref_result (x0 : FVec Ideal Cert.ReferenceIdeal.S100000x64 .f32) (x1 : FVec Ideal Cert.ReferenceIdeal.S1000000x64 .f32)
    (x2 x3 : IVec Cert.ReferenceIdeal.S1000000 32) (x4 : FVec Ideal Cert.ReferenceIdeal.S128x64 .f32)
    (x5 : FVec Ideal Cert.ReferenceIdeal.S64 .f32) (x6 : FVec Ideal Cert.ReferenceIdeal.S128x64 .f32)
    (x7 : FVec Ideal Cert.ReferenceIdeal.S64 .f32) :
    Cert.ReferenceIdeal.Read.val_main_v30 (F := Ideal) x0 x1 x2 x3 x4 x5 x6 x7 = resultOf x0 x1 x2 x3 x4 x5 x6 x7 := by
  rw [← Cert.ReferenceIdeal.Read.val_main_v30_eq, ref_node, ref_edge]
  rfl

end Cert.EdgeConv

end
-- ==== Proof.PreDecode.lean ====
/-
  The precondition's last two conjuncts bound every source-node index: `-100000 ≤ src[e] < 100000`, the range in
  which a NumPy-style index into an array of 100000 rows is defined (a negative index counts from the end).
  The precondition is a conjunction of "all entries satisfy …" tests joined by bitwise and; it equals one
  exactly when every test does, and a test over all entries equals one exactly when every entry passes.
-/
import proofs.«414414_j11811160064041_1_alg».proof.Pre_finite_inputs
import proofs.«414414_j11811160064041_1_alg».proof.Proof.Gen.Pre_finite_inputs
import Idealize.ShloMosaic.Lib.ReduceAll
import Idealize.ShloMosaic.Lib.StableHlo.Predicate
import Idealize.ShloMosaic.Lib.ValueIdx

noncomputable section

open scoped BigOperators

namespace Cert.EdgeConv

open Idealize.ShloMosaic Idealize.ShloMosaic.ValueIdx Cert.Pre_finite_inputs

/-- Under the precondition every source index lies in `[-100000, 100000)` as a signed integer. -/
theorem src_range_of_pre {F : FTy → Type} [FloatOps F]
    (a0 : FVec F S100000x64 .f32) (a1 : FVec F S1000000x64 .f32) (a2 a3 : IVec S1000000 32)
    (a4 : FVec F S128x64 .f32) (a5 : FVec F S64 .f32) (a6 : FVec F S128x64 .f32) (a7 : FVec F S64 .f32)
    (h : Cert.Pre_finite_inputs.fn (F := F) a0 a1 a2 a3 a4 a5 a6 a7 = fun _ => 1#1) :
    ∀ e : S1000000.Idx, -100000 ≤ (a2 e).toInt ∧ (a2 e).toInt < 100000 := by
  intro e
  have h0 := congrFun h ix0
  dsimp only [Cert.Pre_finite_inputs.fn, Cert.Pre_finite_inputs.fn_part1, Cert.Pre_finite_inputs.fn_part2] at h0
  -- the value is ((the earlier tests) and (all src ≥ -100000)) and (all src < 100000): keep the last two
  obtain ⟨h1, hlt⟩ := IntOp.andi_eq_one.mp h0
  obtain ⟨-, hge⟩ := IntOp.andi_eq_one.mp h1
  clear h0 h1
  haveI : Subsingleton S_.Idx := ⟨fun a b => funext fun d => d.elim0⟩
  -- a test over all entries that equals one holds at the entry `e`
  have hge' : IntOp.cmpi .sge (a2 e) 4294867296#32 = 1#1 := Host.reduce_andi_all _ _ _ _ _ hge e
  have hlt' : IntOp.cmpi .slt (a2 e) 100000#32 = 1#1 := Host.reduce_andi_all _ _ _ _ _ hlt e
  -- the two signed comparisons, with the word 4294867296 read signed as -100000
  have c1 : (4294867296#32 : BitVec 32).toInt = -100000 := by decide
  have c2 : (100000#32 : BitVec 32).toInt = 100000 := by decide
  rw [IntOp.cmpi_sge, c1] at hge'
  rw [IntOp.cmpi_slt, c2] at hlt'
  exact ⟨hge', hlt'⟩

end Cert.EdgeConv

end
-- ==== Proof.lean ====
/-
  One message-passing step of an edge-conditioned graph layer, kernel against reference, over the extended reals.

  Both programs compute, from node features `hid` (100000 × 64), edge features `ef` (1000000 × 64), source and
  destination indices and two weight matrices (128 × 64) with biases,

      msg  = relu ([ef | hid[src]] · W1 + b1)                      per edge,
      mean = (sum of msg over the edges into a node) / max (their number, 1)   per node,
      out  = relu ([mean | hid] · W2 + b2)                         per node.

  The reference joins the two blocks side by side and multiplies by the whole weight matrix. The kernel's program
  never forms the joined block: it multiplies each block by its half of the weight matrix and adds, 10000 edges
  (5000 nodes) at a time, and does the gather and the averaging on the host. Over the extended reals the two agree
  because a sum over the 128 joined columns is the sum over the first 64 plus the sum over the last 64; addition
  there is commutative and associative, so the precondition's finiteness is not used. What IS used of the
  precondition is that every source index lies in `[-100000, 100000)`: the kernel's gather replaces the rows of
  indices outside that range by a filler, the reference's does not.

  The three frames: the two kernel programs' frames are the generated ones; the reference's is its generated run
  with the result dropped. The ideal pass rewrote nothing, so `preserves` asks nothing.
-/
import proofs.«414414_j11811160064041_1_alg».proof.Defs
import proofs.«414414_j11811160064041_1_alg».proof.Proof.Gen.Kernel
import proofs.«414414_j11811160064041_1_alg».proof.Proof.Gen.Kernel.Frame
import proofs.«414414_j11811160064041_1_alg».proof.Proof.Gen.KernelIdeal
import proofs.«414414_j11811160064041_1_alg».proof.Proof.Gen.KernelIdeal.Frame
import proofs.«414414_j11811160064041_1_alg».proof.Proof.Gen.ReferenceIdeal
import proofs.«414414_j11811160064041_1_alg».proof.Proof.Gen.Pre_finite_inputs
import proofs.«414414_j11811160064041_1_alg».proof.Proof.Gen.ReferenceIdeal.Run
import proofs.«414414_j11811160064041_1_alg».proof.Proof.Gen.ReferenceIdeal.Read
import proofs.«414414_j11811160064041_1_alg».proof.Proof.KernelRun
import proofs.«414414_j11811160064041_1_alg».proof.Proof.KernelValue
import proofs.«414414_j11811160064041_1_alg».proof.Proof.RefValue
import proofs.«414414_j11811160064041_1_alg».proof.Proof.PreDecode

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the step's function of the (agreeing) arguments in their result buffers. -/
theorem algebraic : Cert.algebraic_KernelIdeal_ReferenceIdeal := by
  intro m ρ m' ρ' hpre hagree
  have hsrc := fun c => Cert.EdgeConv.src_range_of_pre _ _ _ _ _ _ _ _ (hpre c)
  refine ⟨fun c => Cert.EdgeConv.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.EdgeConv.kernel_result m ρ c (hsrc c)), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact (Cert.ReferenceIdeal.Read.val_main_v30_eq _ _ _ _ _ _ _ _).trans (Cert.EdgeConv.ref_result _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
